-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x512 : Shape := ⟨2, ![512, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S1024x512 .f32) (main_arg1 : FVec F S512x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S1024x512 : Shape := ⟨2, ![1024, 512]⟩
abbrev S512x512 : Shape := ⟨2, ![512, 512]⟩
abbrev S256x512 : Shape := ⟨2, ![256, 512]⟩
abbrev S128x512 : Shape := ⟨2, ![128, 512]⟩
abbrev S256x128 : Shape := ⟨2, ![256, 128]⟩
abbrev S128x128 : Shape := ⟨2, ![128, 128]⟩
abbrev S256x1x128 : Shape := ⟨3, ![256, 1, 128]⟩
abbrev S1x128x128 : Shape := ⟨3, ![1, 128, 128]⟩
abbrev S256x128x128 : Shape := ⟨3, ![256, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S128x512, .f32⟩
  | .local _ .vmem, ⟨3, _⟩ => ⟨S128x512, .f32⟩
  | .local _ .vmem, ⟨4, _⟩ => ⟨S256x128, .f32⟩
  | .local _ .vmem, ⟨5, _⟩ => ⟨S256x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S256x512_S256x128_0_0 : ∀ a, (![0, 0] : Fin 2 → Nat) a + S256x128.size a ≤ S256x512.size a
  h_S256x128 : 0 < S256x128.numel
  inb_S128x512_S128x128_0_0 : ∀ a, (![0, 0] : Fin 2 → Nat) a + S128x128.size a ≤ S128x512.size a
  h_S128x128 : 0 < S128x128.numel
  shapeCasts_S256x128_S256x1x128 : S256x128.ShapeCasts S256x1x128
  shapeCasts_S128x128_S1x128x128 : S128x128.ShapeCasts S1x128x128
  broadcasts_S256x1x128_S256x128x128 : S256x1x128.Broadcasts S256x128x128
  broadcasts_S1x128x128_S256x128x128 : S1x128x128.Broadcasts S256x128x128
  reduces_S256x128x128_S256x128 : S256x128x128.Reduces [2] S256x128
  inb_S256x512_S256x128_0_128 : ∀ a, (![0, 128] : Fin 2 → Nat) a + S256x128.size a ≤ S256x512.size a
  inb_S128x512_S128x128_0_128 : ∀ a, (![0, 128] : Fin 2 → Nat) a + S128x128.size a ≤ S128x512.size a
  inb_S256x512_S256x128_0_256 : ∀ a, (![0, 256] : Fin 2 → Nat) a + S256x128.size a ≤ S256x512.size a
  inb_S128x512_S128x128_0_256 : ∀ a, (![0, 256] : Fin 2 → Nat) a + S128x128.size a ≤ S128x512.size a
  inb_S256x512_S256x128_0_384 : ∀ a, (![0, 384] : Fin 2 → Nat) a + S256x128.size a ≤ S256x512.size a
  inb_S128x512_S128x128_0_384 : ∀ a, (![0, 384] : Fin 2 → Nat) a + S128x128.size a ≤ S128x512.size a
  inb_S256x128_S256x128_0_0 : ∀ a, (![0, 0] : Fin 2 → Nat) a + S256x128.size a ≤ S256x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x512.size a
  hwx0_1 : ∀ i : grid0.Coords, EltTy.bits .f32 = 32 ∨ (Rect.block (s := S512x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S1024x512.size a
  hwx0_2 : ∀ i : grid0.Coords, EltTy.bits .f32 = 32 ∨ (Rect.block (s := S1024x512) S256x128.size (cc0_transform_2 i) (hinb0_2 i)).WholeWords (EltTy.packing .f32)

variable [Facts₀]

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x512 : Shape := ⟨2, ![1024, 512]⟩
abbrev S512x512 : Shape := ⟨2, ![512, 512]⟩
abbrev S1024x1x512 : Shape := ⟨3, ![1024, 1, 512]⟩
abbrev S1x512x512 : Shape := ⟨3, ![1, 512, 512]⟩
abbrev S1024x512x512 : Shape := ⟨3, ![1024, 512, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S1024x1x512, .f32⟩
  | .hbm, ⟨3, _⟩ => ⟨S1x512x512, .f32⟩
  | .hbm, ⟨4, _⟩ => ⟨S1024x512x512, .f32⟩
  | .hbm, ⟨5, _⟩ => ⟨S1024x512x512, .f32⟩
  | .hbm, ⟨6, _⟩ => ⟨S1024x512x512, .f32⟩
  | .hbm, ⟨7, _⟩ => ⟨S_, .f32⟩
  | .hbm, ⟨8, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S1024x512_S1024x1x512_0_2 : S1024x512.BroadcastsInDim S1024x1x512 (![0, 2] : Fin 2 → Fin S1024x1x512.rank)
  bcast_S512x512_S1x512x512_1_2 : S512x512.BroadcastsInDim S1x512x512 (![1, 2] : Fin 2 → Fin S1x512x512.rank)
  bcast_S1024x1x512_S1024x512x512_0_1_2 : S1024x1x512.BroadcastsInDim S1024x512x512 (![0, 1, 2] : Fin 3 → Fin S1024x512x512.rank)
  bcast_S1x512x512_S1024x512x512_0_1_2 : S1x512x512.BroadcastsInDim S1024x512x512 (![0, 1, 2] : Fin 3 → Fin S1024x512x512.rank)
  reducesTo_S1024x512x512_S1024x512_d2 : S1024x512x512.ReducesTo [2] S1024x512
  h_S_ : 0 < S_.numel

variable [Facts₀]

class Facts : Prop extends Facts₀ where

variable [Facts]
-- ==== Proof.MinPlusSpec.lean ====
/-
  The tropical (min-plus) linear layer, and the one law of the order that this certificate rests on.

  For an activation matrix `X` of 1024 rows and a weight matrix `W` of 512 rows, both 512 wide, the layer's entry
  `(b, o)` is the least of the 512 sums `X[b, i] + W[o, i]`, on the extended reals: `minPlus`. The least element of an
  empty family is `⊤`, which is why the running minimum starts there.

  A minimum over 512 positions may be taken 128 positions at a time: the minimum of the four partial minima, each
  started from `⊤` and folded one after another into a running minimum that itself starts at `⊤`, is the minimum
  over all 512 (`min_quarters`). Only the universal property of a minimum is used — `z` is below a minimum exactly
  when it is below every member — so nothing is asked of the entries: they may be infinite.
-/
import Idealize.ShloMosaic.PureOps.Ideal
import Idealize.ShloMosaic.Lib.ValueIdx
import Mathlib.Data.Finset.Fold
import Mathlib.Data.EReal.Basic

noncomputable section

namespace Cert.MinPlus

open Idealize.ShloMosaic Idealize.ShloMosaic.ValueIdx

/-- The min-plus product: entry `(b, o)` is the least of `X[b, i] + W[o, i]` over the 512 inner positions `i`. -/
def minPlus (X : (⟨2, ![1024, 512]⟩ : Shape).Idx → EReal) (W : (⟨2, ![512, 512]⟩ : Shape).Idx → EReal) :
    (⟨2, ![1024, 512]⟩ : Shape).Idx → EReal :=
  fun j => (Finset.univ : Finset (Fin 512)).fold min ⊤ (fun i => X (ix2 (j 0) i) + W (ix2 (j 1) i))

/-- Position `k` of quarter `c` of the 512 inner positions: `128 c + k`. -/
def quarter (c : Fin 4) (k : Fin 128) : Fin 512 := ⟨128 * c.val + k.val, by have := c.isLt; have := k.isLt; omega⟩

theorem quarter_val (c : Fin 4) (k : Fin 128) : (quarter c k).val = 128 * c.val + k.val := rfl

/-- Every inner position lies in one quarter. -/
theorem exists_quarter (i : Fin 512) : ∃ c k, quarter c k = i :=
  ⟨⟨i.val / 128, by have := i.isLt; omega⟩, ⟨i.val % 128, Nat.mod_lt _ (by decide)⟩, Fin.ext (by
    show 128 * (i.val / 128) + i.val % 128 = i.val; omega)⟩

/-- A minimum over 512 positions taken a quarter at a time. The four partial minima `g c` each start from `⊤`; they
    are folded, in order, into a running minimum that starts at `⊤`. The result is the minimum over all positions:
    an extended real is below either side exactly when it is below every `f i`. -/
theorem min_quarters (f : Fin 512 → EReal) (g : Fin 4 → Fin 128 → EReal) (hg : ∀ c k, g c k = f (quarter c k)) :
    min (min (min (min ⊤ ((Finset.univ : Finset (Fin 128)).fold min ⊤ (g 0)))
        ((Finset.univ : Finset (Fin 128)).fold min ⊤ (g 1)))
        ((Finset.univ : Finset (Fin 128)).fold min ⊤ (g 2)))
        ((Finset.univ : Finset (Fin 128)).fold min ⊤ (g 3))
      = (Finset.univ : Finset (Fin 512)).fold min ⊤ f := by
  refine eq_of_forall_le_iff fun z => ?_
  simp only [le_min_iff, Finset.le_fold_min, le_top, true_and, Finset.mem_univ, forall_true_left, hg]
  constructor
  · rintro ⟨⟨⟨h0, h1⟩, h2⟩, h3⟩ i
    obtain ⟨c, k, rfl⟩ := exists_quarter i
    match c with
    | ⟨0, _⟩ => exact h0 k
    | ⟨1, _⟩ => exact h1 k
    | ⟨2, _⟩ => exact h2 k
    | ⟨3, _⟩ => exact h3 k
  · intro h
    exact ⟨⟨⟨fun k => h _, fun k => h _⟩, fun k => h _⟩, fun k => h _⟩

end Cert.MinPlus

end
-- ==== Proof.LibMinReduce.lean ====
/-
  Minimum reductions over ONE axis, read at the ideal values.

  At the ideal values a float is an extended real and `minimumf` is `min`, which commutes and associates; so a
  reduction by `minimumf` over one axis does not depend on the order its definition folds in, and at a result index
  `j` it is the fold of `min`, from the starting value, over the coordinates `k` of the reduced axis, of the source at
  `j` with `k` inserted on that axis (`Shape.Reduces.lift`). This holds for a kernel's `vector.multi_reduction
  <minimumf>` (`multiReduction_minimumf_single`), whose starting value is the accumulator word's, and for a
  reference's `stablehlo.reduce` with a `minimum` body (`hostReduce_minimumf_single`), whose starting value is the
  rank-zero initial operand's one element. Generic in the shapes, the axis and the float type.

  The starting word of such reductions in single precision is `0x7F800000`, `+∞`: it denotes `⊤`
  (`ofBits_f32_posInf`), the identity of `min`.
-/
import Idealize.ShloMosaic.PureOps.Ideal.Laws
import Idealize.ShloMosaic.PureOps.Reduce

noncomputable section

namespace LibMinReduce

open Idealize.ShloMosaic

variable {φ : FTy}

/-- Single precision's `+∞` word denotes `⊤`. -/
theorem ofBits_f32_posInf : Ideal.ofBits .f32 0x7F800000#32 = (⊤ : EReal) := by simp [Ideal.ofBits, Ideal.ieee]

/-- A float `vector.multi_reduction <minimumf>` over one axis, read at the ideal values at a result index `j`: the fold
    of `min` from the accumulator word's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's one-operand `stablehlo.reduce` with a `minimum` body over one axis, read at the ideal values at `j`: the
    fold of `min` from the initial operand's element over that axis's coordinates. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce FloatOps.minimumf x init h' hu j
      = (Finset.univ : Finset (Fin (s.size a))).fold min (init (Shape.Idx.first hu)) (x ∘ h.lift j) :=
  Host.reduce_eq_fold_single (FloatOps.minimumf (F := Ideal) (φ := φ)) x init h' h hu j

end LibMinReduce

end
-- ==== Proof.KernelBlock.lean ====
/-
  One block of the kernel's result is the min-plus product of its two input blocks.

  At a grid point the kernel holds 256 rows of `X` and 128 rows of `W`, all 512 wide. It takes the 512 inner positions a
  quarter (128 lanes) at a time: the quarter's slices of the two blocks are stretched over a 256 × 128 × 128 array, added,
  and reduced along the last axis by `minimumf` from `+∞`; the partial minimum is folded into a running minimum that
  started at `+∞`. So entry `(p, q)` of the block is the running minimum of four partial minima, quarter `c`'s being the
  least of `X[p, 128 c + k] + W[q, 128 c + k]` over the 128 lanes `k` (`quarter_apply`), and by `min_quarters` that is the
  least over all 512 inner positions (`block_apply`).
-/
import proofs.«116958_j70832600646272_1_alg».proof.Proof.Gen.KernelIdeal.Value
import proofs.«116958_j70832600646272_1_alg».proof.Proof.MinPlusSpec
import proofs.«116958_j70832600646272_1_alg».proof.Proof.LibMinReduce
import Idealize.ShloMosaic.Lib.Pipeline.Value
import Idealize.ShloMosaic.Lib.ValueLayout

noncomputable section

namespace Cert.MinPlus.Kernel

open Cert.KernelIdeal Cert.KernelIdeal.Gen Cert.KernelIdeal.Value Idealize.ShloMosaic Idealize.ShloMosaic.ValueIdx

/-- One quarter's partial minimum at a block index `y`: two 128-lane slices `P` (256 rows) and `Q` (128 rows), each
    given a unit axis and stretched over 256 × 128 × 128, added, and reduced over the lanes from `+∞`, is the least over
    the lanes `k` of `P[y₀, k] + Q[y₁, k]`. -/
theorem quarter_apply (P : Vec Ideal S256x128 .f32) (Q : Vec Ideal S128x128 .f32) (y : S256x128.Idx) :
    multiReduction (F := Ideal) .minimumf [2] S256x128 (addf (broadcastTo S256x128x128 (shapeCast S256x1x128 P shapeCasts_S256x128_S256x1x128) broadcasts_S256x1x128_S256x128x128) (broadcastTo S256x128x128 (shapeCast S1x128x128 Q shapeCasts_S128x128_S1x128x128) broadcasts_S1x128x128_S256x128x128)) 0x7F800000#32 reduces_S256x128x128_S256x128 (.inl rfl) rfl y
      = (Finset.univ : Finset (Fin 128)).fold min ⊤ (fun k => P (ix2 (y 0) k) + Q (ix2 (y 1) k)) := by
  refine (LibMinReduce.multiReduction_minimumf_single _ _ reduces_S256x128x128_S256x128 _ _ y).trans ?_
  show (Finset.univ : Finset (Fin 128)).fold min (Ideal.ofBits .f32 0x7F800000#32) _ = _
  rw [LibMinReduce.ofBits_f32_posInf]
  refine Finset.fold_congr fun k _ => ?_
  show broadcastTo S256x128x128 (shapeCast S256x1x128 P shapeCasts_S256x128_S256x1x128) broadcasts_S256x1x128_S256x128x128 (reduces_S256x128x128_S256x128.lift y k)
      + broadcastTo S256x128x128 (shapeCast S1x128x128 Q shapeCasts_S128x128_S1x128x128) broadcasts_S1x128x128_S256x128x128 (reduces_S256x128x128_S256x128.lift y k) = _
  congr 1
  · refine (broadcastTo_apply _ broadcasts_S256x1x128_S256x128x128 _ (ix3 (y 0) (0 : Fin 1) k) (fun a => ?_)).trans ?_
    · match a with
      | ⟨0, _⟩ => rfl
      | ⟨1, _⟩ => rfl
      | ⟨2, _⟩ => rfl
    · exact shapeCast_apply P shapeCasts_S256x128_S256x1x128 _ (ix2 (y 0) k) (by
        rw [Shape.rowMajor_val_two, Shape.rowMajor_val_three]
        show (y 0).val * 128 + k.val = ((y 0).val * 1 + 0) * 128 + k.val
        omega)
  · refine (broadcastTo_apply _ broadcasts_S1x128x128_S256x128x128 _ (ix3 (0 : Fin 1) (y 1) k) (fun a => ?_)).trans ?_
    · match a with
      | ⟨0, _⟩ => rfl
      | ⟨1, _⟩ => rfl
      | ⟨2, _⟩ => rfl
    · exact shapeCast_ab_1ab_apply Q shapeCasts_S128x128_S1x128x128 0 (y 1) k

/-- A 128-lane slice of the `X` block starting at lane `o`, read at `(p, k)`, is the block at `(p, o + k)`. -/
theorem xslice_apply (x0 : Vec Ideal S256x512 .f32) (o : Nat) (inb : ∀ a, (![0, o] : Fin 2 → Nat) a + S256x128.size a ≤ S256x512.size a)
    (p : Fin 256) (k : Fin 128) (i : Fin 512) (hi : i.val = o + k.val) :
    View.ld x0 (Rect.unit (s := S256x512) ![0, o] S256x128.size inb) (ix2 p k) = x0 (ix2 p i) := by
  show x0 _ = x0 _
  congr 1; funext a; apply Fin.ext
  match a with
  | ⟨0, _⟩ => show 0 + 1 * p.val = p.val; omega
  | ⟨1, _⟩ => show o + 1 * k.val = i.val; omega

/-- The same for the `W` block. -/
theorem wslice_apply (x1 : Vec Ideal S128x512 .f32) (o : Nat) (inb : ∀ a, (![0, o] : Fin 2 → Nat) a + S128x128.size a ≤ S128x512.size a)
    (q : Fin 128) (k : Fin 128) (i : Fin 512) (hi : i.val = o + k.val) :
    View.ld x1 (Rect.unit (s := S128x512) ![0, o] S128x128.size inb) (ix2 q k) = x1 (ix2 q i) := by
  show x1 _ = x1 _
  congr 1; funext a; apply Fin.ext
  match a with
  | ⟨0, _⟩ => show 0 + 1 * q.val = q.val; omega
  | ⟨1, _⟩ => show o + 1 * k.val = i.val; omega

/-- WHAT THE BODY LEAVES in the output block, from the input blocks `x0` (256 rows of `X`) and `x1` (128 rows of `W`):
    entry `y` is the least over the 512 inner positions `i` of `x0[y₀, i] + x1[y₁, i]`. -/
theorem block_apply (x0 : Vec Ideal S256x512 .f32) (x1 : Vec Ideal S128x512 .f32) (y : S256x128.Idx) :
    out0_2 (F := Ideal) x0 x1 y
      = (Finset.univ : Finset (Fin 512)).fold min ⊤ (fun i => x0 (ix2 (y 0) i) + x1 (ix2 (y 1) i)) := by
  unfold out0_2
  rw [canon2_eq]
  refine Eq.trans ?_ (min_quarters (fun i => x0 (ix2 (y 0) i) + x1 (ix2 (y 1) i))
    (fun c k => x0 (ix2 (y 0) (quarter c k)) + x1 (ix2 (y 1) (quarter c k))) (fun _ _ => rfl))
  refine congrArg₂ min (congrArg₂ min (congrArg₂ min (congrArg₂ min LibMinReduce.ofBits_f32_posInf ?_) ?_) ?_) ?_
  · refine (quarter_apply _ _ _).trans (Finset.fold_congr fun k _ => ?_)
    exact congrArg₂ (· + ·) (xslice_apply x0 0 _ _ k (quarter 0 k) (by rw [quarter_val]; rfl))
      (wslice_apply x1 0 _ _ k (quarter 0 k) (by rw [quarter_val]; rfl))
  · refine (quarter_apply _ _ _).trans (Finset.fold_congr fun k _ => ?_)
    exact congrArg₂ (· + ·) (xslice_apply x0 128 _ _ k (quarter 1 k) (by rw [quarter_val]; rfl))
      (wslice_apply x1 128 _ _ k (quarter 1 k) (by rw [quarter_val]; rfl))
  · refine (quarter_apply _ _ _).trans (Finset.fold_congr fun k _ => ?_)
    exact congrArg₂ (· + ·) (xslice_apply x0 256 _ _ k (quarter 2 k) (by rw [quarter_val]; rfl))
      (wslice_apply x1 256 _ _ k (quarter 2 k) (by rw [quarter_val]; rfl))
  · refine (quarter_apply _ _ _).trans (Finset.fold_congr fun k _ => ?_)
    exact congrArg₂ (· + ·) (xslice_apply x0 384 _ _ k (quarter 3 k) (by rw [quarter_val]; rfl))
      (wslice_apply x1 384 _ _ k (quarter 3 k) (by rw [quarter_val]; rfl))

end Cert.MinPlus.Kernel

end
-- ==== Proof.KernelValue.lean ====
/-
  The kernel's result array is the min-plus product of its argument arrays.

  The grid has sixteen points `(i, j)`, four by four. Point `(i, j)` reads rows `256 i …` of `X` and rows `128 j …` of `W`,
  each over all 512 columns, and writes back the 256 × 128 block of the result at rows `256 i …`, columns `128 j …`. By
  `block_apply` that block's entry `(p, q)` is the least over the inner positions of `X[256 i + p, ·] + W[128 j + q, ·]`,
  which is entry `(256 i + p, 128 j + q)` of `minPlus X W`: every point writes back the matching block of ONE
  whole-array function (`flushed_eq`). The sixteen blocks cover the 1024 × 512 array — index `(r, s)` lies in the block
  of point `(r / 256, s / 128)` (`covered`) — so after the run the array is `minPlus X W` (`final`, `run`).
-/
import proofs.«116958_j70832600646272_1_alg».proof.Proof.Gen.KernelIdeal.Value
import proofs.«116958_j70832600646272_1_alg».proof.Proof.KernelBlock

noncomputable section

namespace Cert.MinPlus.Kernel

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The `X` argument as the region finds it, at its literal type. -/
abbrev xarr (c : Dev nD) : Vec Ideal S1024x512 .f32 := V m c main_arg0
/-- The `W` argument as the region finds it, at its literal type. -/
abbrev warr (c : Dev nD) : Vec Ideal S512x512 .f32 := V m c main_arg1

/-- The block indices at a grid point, decided over the sixteen points: the `X` window's row block is the result's row
    block, the `W` window's row block is the result's column block, both input windows take all columns (block 0), and
    the result's block indices are at most 3. -/
theorem block_indices : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3 ∧ win0_2.index t (1 : Fin 2) ≤ 3 :=
  (by decide +kernel : ∀ t : Fin grid0.N, _)

/-- Every one of the four by four result blocks is some grid point's. -/
theorem block_onto : ∀ (q0 : Fin 4) (q1 : Fin 4), ∃ t : Fin cfg0.N, win0_2.index t = ![q0.val, q1.val] :=
  (by decide +kernel : ∀ (q0 : Fin 4) (q1 : Fin 4), ∃ t : Fin grid0.N, win0_2.index t = ![q0.val, q1.val])

/-- WHAT POINT `t` WRITES BACK is block `t` of the min-plus product of the argument arrays. -/
theorem flushed_eq (c : Dev nD) (t : Fin cfg0.N) :
    (dats m 0 c).flushed 2 t
      = ((cfg0.win 2).blk t).view.read (Elt Ideal) (minPlus (V m c main_arg0) (V m c main_arg1)) := by
  rw [flushed2]
  obtain ⟨e0, e1, e2, e3, -, -⟩ := block_indices t
  funext j
  show out0_2 (iblk m c 0 t) (iblk m c 1 t) j
    = minPlus (V m c main_arg0) (V m c main_arg1) (((cfg0.win 2).blk t).view.emb j)
  refine (block_apply (iblk m c 0 t) (iblk m c 1 t) j).trans ?_
  unfold minPlus
  refine Finset.fold_congr fun i _ => ?_
  show xarr m c (((cfg0.win 0).blk t).view.emb (ix2 (j 0) i)) + warr m c (((cfg0.win 1).blk t).view.emb (ix2 (j 1) i))
    = xarr m c (ix2 ((((cfg0.win 2).blk t).view.emb j) 0) i) + warr m c (ix2 ((((cfg0.win 2).blk t).view.emb j) 1) i)
  have h0 : ((cfg0.win 0).blk t).view.emb (ix2 (j 0) i) = ix2 ((((cfg0.win 2).blk t).view.emb j) 0) i := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 512 + 1 * i.val = i.val; omega
  have h1 : ((cfg0.win 1).blk t).view.emb (ix2 (j 1) i) = ix2 ((((cfg0.win 2).blk t).view.emb j) 1) i := by
    funext a; apply Fin.ext
    match a with
    | ⟨0, _⟩ => show win0_1.index t (0 : Fin 2) * 128 + 1 * (j 1).val = win0_2.index t (1 : Fin 2) * 128 + 1 * (j 1).val; omega
    | ⟨1, _⟩ => show win0_1.index t (1 : Fin 2) * 512 + 1 * i.val = i.val; omega
  exact congrArg₂ (· + ·) (congrArg (xarr m c) h0) (congrArg (warr m c) h1)

/-- An index of the result array is in point `t`'s block exactly when each coordinate is in the block's range. -/
theorem mem_block (t : Fin cfg0.N) (i : S1024x512.Idx) :
    i ∈ ((cfg0.win 2).blk t).view.set ↔ ∀ a : Fin 2, win0_2.index t a * S256x128.size a ≤ (i a).val
      ∧ (i a).val < win0_2.index t a * S256x128.size a + S256x128.size a := by
  show i ∈ ((View.whole main_v0).slice (win0_2.rect t)).set ↔ _
  rw [View.set_slice_whole, Rect.mem_set_unit]
  exact Iff.rfl

/-- THE BLOCKS COVER the result array: `(r, s)` is in the block of the point whose block indices are `(r / 256, s / 128)`. -/
theorem covered (i : S1024x512.Idx) :
    ∃ t : Fin cfg0.N, (cfg0.win 2).flush t = true ∧ i ∈ ((cfg0.win 2).blk t).view.set := by
  have hi0 : (i 0).val < 1024 := (i 0).isLt
  have hi1 : (i 1).val < 512 := (i 1).isLt
  obtain ⟨t, ht⟩ := block_onto ⟨(i 0).val / 256, by omega⟩ ⟨(i 1).val / 128, by omega⟩
  have q0 : win0_2.index t (0 : Fin 2) = (i 0).val / 256 := congrFun ht 0
  have q1 : win0_2.index t (1 : Fin 2) = (i 1).val / 128 := congrFun ht 1
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 128 ≤ (i 1).val ∧ (i 1).val < win0_2.index t (1 : Fin 2) * 128 + 128; omega

/-- THE RESULT ARRAY after the run is the min-plus product of the argument arrays as launched. -/
theorem final (c : Dev nD) :
    (dats m 0 c).arrAt 2 cfg0.N = minPlus (m ((c : Thread nD τ).loc main_arg0)) (m ((c : Thread nD τ).loc main_arg1)) :=
  (dats m 0 c).arrAt_eq_of_cover 2 (minPlus (V m c main_arg0) (V m c main_arg1)) (fun t _ => flushed_eq m c t)
    (fun i => covered i)

/-- The kernel's run: it ends with its result array at the min-plus product of its arguments, the arguments unchanged. -/
theorem run : θ_run defs (onTc (τ := τ) (main (F := Ideal))) ⟨m, fun _ => 0, ρ⟩ fun r => ∀ c : Dev nD,
      r.2.mem ((c : Thread nD τ).loc main_v0) = minPlus (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.MinPlus.Kernel

end
-- ==== Proof.ReferenceValue.lean ====
/-
  The reference computes the min-plus product.

  The reference adds `X[b, i]` and `W[o, i]` over a 1024 × 512 × 512 array — each operand put there by two broadcasts,
  the first inserting a unit axis and the second stretching it — and takes the minimum over the last axis from `+∞`.
  Read at `(b, o)`: the minimum over the last axis is a minimum over that axis's 512 coordinates `i` of the entry at
  `(b, o, i)`; the broadcasts send `(b, o, i)` to `(b, i)` of `X` and to `(o, i)` of `W`. That is `minPlus X W` at `(b, o)`.
-/
import proofs.«116958_j70832600646272_1_alg».proof.Proof.Gen.ReferenceIdeal.Read
import proofs.«116958_j70832600646272_1_alg».proof.Proof.MinPlusSpec
import proofs.«116958_j70832600646272_1_alg».proof.Proof.LibMinReduce

noncomputable section

namespace Cert.MinPlus.Reference

open Cert.ReferenceIdeal Cert.ReferenceIdeal.Gen Cert.ReferenceIdeal.Read Idealize.ShloMosaic Idealize.ShloMosaic.ValueIdx

/-- The last axis of the 1024 × 512 × 512 array can be reduced away, leaving 1024 × 512. -/
theorem reduces_last : S1024x512x512.Reduces [2] S1024x512 := by decide

/-- The reference's result, as the generated reading of its program states it, is the min-plus product of its
    arguments. -/
theorem result_eq (x0 : (⟨S1024x512, .f32⟩ : BufTy).Contents (Elt Ideal)) (x1 : (⟨S512x512, .f32⟩ : BufTy).Contents (Elt Ideal)) :
    val_main_v5 (F := Ideal) x0 x1 = minPlus x0 x1 := by
  funext j
  unfold val_main_v5
  rw [LibMinReduce.hostReduce_minimumf_single _ _ reducesTo_S1024x512x512_S1024x512_d2 reduces_last h_S_ j]
  show (Finset.univ : Finset (Fin 512)).fold min (Ideal.ofBits .f32 0x7F800000#32)
      (fun i => val_main_v4 (F := Ideal) x0 x1 (reduces_last.lift j i)) = _
  rw [LibMinReduce.ofBits_f32_posInf]
  unfold minPlus
  refine Finset.fold_congr fun i _ => ?_
  rw [val_main_v4_apply, val_main_v2_apply, val_main_v0_apply, val_main_v3_apply, val_main_v1_apply]
  show x0 _ + x1 _ = x0 _ + x1 _
  congr 2
  · funext a; apply Fin.ext
    match a with
    | ⟨0, _⟩ => rfl
    | ⟨1, _⟩ => rfl
  · funext a; apply Fin.ext
    match a with
    | ⟨0, _⟩ => rfl
    | ⟨1, _⟩ => rfl

end Cert.MinPlus.Reference

end
-- ==== Proof.lean ====
/-
  A tropical (min-plus) linear layer: `out[b, o] = min_i (X[b, i] + W[o, i])` for `X` of 1024 × 512 and `W` of 512 × 512, as
  a kernel tiled four by four over the result against the plain formula.

  Both programs compute, on the extended reals, the least of the 512 sums `X[b, i] + W[o, i]` (`minPlus`). The reference
  forms all sums over a 1024 × 512 × 512 array and reduces its last axis by `minimum` from `+∞`. The kernel, at each of its
  sixteen grid points, holds 256 rows of `X` and 128 rows of `W`, and goes through the inner positions 128 lanes at a time:
  a partial minimum over the lanes from `+∞`, folded into a running minimum that started at `+∞`. The one law between the
  two is that a minimum over 512 positions is the minimum of its four quarters' minima (`min_quarters`): it holds for all
  extended reals, so the finiteness of the inputs is never used. The word `0x7F800000` is `+∞` on both sides and denotes `⊤`.

  The kernel's frame and the value of each block it writes back are generated (the class-A frame; the blockwise value
  leg); so is the reference's run and its reading one operation at a time. Written here: the block as the min-plus
  product of the input blocks, the sixteen blocks as one whole-array function that they cover, and the reference's
  reduction read as the same function. The idealization rewrote nothing, so the ledger's claim is `True`.
-/
import proofs.«116958_j70832600646272_1_alg».proof.Defs
import proofs.«116958_j70832600646272_1_alg».proof.Proof.Gen.Kernel
import proofs.«116958_j70832600646272_1_alg».proof.Proof.Gen.Kernel.Skeleton
import proofs.«116958_j70832600646272_1_alg».proof.Proof.Gen.Kernel.Launch
import proofs.«116958_j70832600646272_1_alg».proof.Proof.Gen.Kernel.Points
import proofs.«116958_j70832600646272_1_alg».proof.Proof.Gen.Kernel.Frame
import proofs.«116958_j70832600646272_1_alg».proof.Proof.Gen.KernelIdeal
import proofs.«116958_j70832600646272_1_alg».proof.Proof.Gen.KernelIdeal.Skeleton
import proofs.«116958_j70832600646272_1_alg».proof.Proof.Gen.KernelIdeal.Launch
import proofs.«116958_j70832600646272_1_alg».proof.Proof.Gen.KernelIdeal.Points
import proofs.«116958_j70832600646272_1_alg».proof.Proof.Gen.KernelIdeal.Frame
import proofs.«116958_j70832600646272_1_alg».proof.Proof.Gen.ReferenceIdeal
import proofs.«116958_j70832600646272_1_alg».proof.Proof.Gen.Pre_finite_inputs
import proofs.«116958_j70832600646272_1_alg».proof.Proof.Gen.KernelIdeal.Value
import proofs.«116958_j70832600646272_1_alg».proof.Proof.Gen.ReferenceIdeal.Run
import proofs.«116958_j70832600646272_1_alg».proof.Proof.Gen.ReferenceIdeal.Read
import proofs.«116958_j70832600646272_1_alg».proof.Proof.KernelValue
import proofs.«116958_j70832600646272_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel, at the word level, runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From arguments that agree, both programs end with the min-plus product of the arguments: the kernel by its sixteen
    blocks (`Cert.MinPlus.Kernel.run`), the reference by its reduction read as that product
    (`Cert.MinPlus.Reference.result_eq`). -/
theorem algebraic : Cert.algebraic_KernelIdeal_ReferenceIdeal := by
  intro m ρ m' ρ' _ hagree
  refine ⟨fun c => Cert.MinPlus.minPlus (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.MinPlus.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.MinPlus.Reference.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
